-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_c_1048576_11863283" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S64x2048x2048 : Shape := ⟨3, ![64, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S4x16x2048x2048 : Shape := ⟨4, ![4, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S64x2048x2048, .f32⟩
  | .hbm, ⟨8, _⟩ => ⟨S4x16x2048x128, .f32⟩
  | .hbm, ⟨9, _⟩ => ⟨S4x16x2048x2048, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x2048, .f32⟩
  | .local _ .vmem, ⟨9, _⟩ => ⟨S1x256x2048, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x128_S64x2048x128 : S4x16x2048x128.ShapeCasts S64x2048x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x128_S1x256x128 : S256x128.ShapeCasts S1x256x128
  shapeCasts_S64x2048x128_S4x16x2048x128 : S64x2048x128.ShapeCasts S4x16x2048x128
  shapeCasts_S64x2048x2048_S4x16x2048x2048 : S64x2048x2048.ShapeCasts S4x16x2048x2048
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S64x2048x128.size a
  hwx0_0 : ∀ i : grid0.Coords, EltTy.bits .f32 = 32 ∨ (Rect.block (s := S64x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S64x2048x128.size a
  hwx0_2 : ∀ i : grid0.Coords, EltTy.bits .f32 = 32 ∨ (Rect.block (s := S64x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S64x2048x128.size a
  hwx0_3 : ∀ i : grid0.Coords, EltTy.bits .f32 = 32 ∨ (Rect.block (s := S64x2048x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S64x2048x2048.size a
  hwx0_4 : ∀ i : grid0.Coords, EltTy.bits .f32 = 32 ∨ (Rect.block (s := S64x2048x2048) S1x256x2048.size (cc0_transform_4 i) (hinb0_4 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.LibERealSum.lean ====
/-
  A nonnegative finite factor and a sum of extended reals.

  On the extended reals multiplication does not distribute over addition in general (∞ − ∞ is a convention), but a
  factor that is a nonnegative REAL does, against any two extended reals, the infinities included.  So such a factor
  comes out of any finite sum (`sum_mul_coe`), and scaling one operand of a contraction entry by entry scales the
  contraction (`scaled_dot`): a kernel that folds a scale c ≥ 0 into an operand before a matrix product agrees with a
  reference that scales the product, with no finiteness asked of the entries.
-/
import Idealize.ShloMosaic.PureOps.Ideal

namespace Cert.Lib.ERealSum

/-- A nonnegative finite factor comes out of any sum of extended reals. -/
theorem sum_mul_coe {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- Scaling one operand's entries before a contraction scales the contraction. -/
theorem scaled_dot {d : Nat} (q k : Fin d → EReal) {c : ℝ} (hc : 0 ≤ c) :
    ∑ e : Fin d, (q e * (c : EReal)) * k e = (∑ e : Fin d, q e * k e) * (c : EReal) := by
  rw [← sum_mul_coe _ _ hc]
  exact Finset.sum_congr rfl fun e _ => mul_right_comm _ _ _

end Cert.Lib.ERealSum
-- ==== Proof.Softmax.lean ====
/-
  Scaled dot-product attention on the extended reals, one query row at a time, away from any program.

  A row of logits ℓ : Fin n → EReal has the maximum `rowMax ℓ` (the fold of `max` from ⊥ over the row) and the
  softmax `softmax ℓ k = exp (ℓ k − rowMax ℓ) / Σ_j exp (ℓ j − rowMax ℓ)`.  A query row `q` against the rows of a key
  matrix `K` at the scale `c` has the logits `(Σ_d q d · K k d) · c`; its attention weights are the softmax of that
  row (`attnWeights`) and its output the weights' combination of the rows of a value matrix (`attnOut`).

  Scaling the query first, `Σ_d (q d · c) · K k d`, is the same extended real for every finite `c ≥ 0`: a
  nonnegative finite factor distributes over every sum of extended reals, the infinities included, so no
  finiteness of the entries is asked (`Cert.Lib.ERealSum.scaled_dot`).  Dividing by a nonzero real `D` is the product
  with `1 / D` on every extended real, so a program that divides the unscaled logits by `D` has the logits at the
  scale `1 / D`.
-/
import Idealize.ShloMosaic.PureOps.Ideal
import Idealize.ShloMosaic.PureOps.Ideal.Laws
import Idealize.ShloMosaic.Lib.ValueIdx
import proofs.«411824_j29094108463701_3_alg».proof.Proof.LibERealSum

noncomputable section

namespace Cert.Attention

open Idealize.ShloMosaic

/-- The largest entry of a row, from ⊥ for the empty row. -/
def rowMax {n : Nat} (ℓ : Fin n → EReal) : EReal := (Finset.univ : Finset (Fin n)).fold max ⊥ ℓ

/-- The softmax of a row of logits, shifted by the row's maximum as both programs compute it. -/
def softmax {n : Nat} (ℓ : Fin n → EReal) (k : Fin n) : EReal :=
  Ideal.div (Ideal.exp (ℓ k - rowMax ℓ)) (∑ j : Fin n, Ideal.exp (ℓ j - rowMax ℓ))

/-- The logits of the query row `q` against each row of `K`, at the scale `c`. -/
def logits {n d : Nat} (c : EReal) (q : Fin d → EReal) (K : Fin n → Fin d → EReal) : Fin n → EReal :=
  fun k => (∑ e : Fin d, q e * K k e) * c

/-- The attention weights of one query row. -/
def attnWeights {n d : Nat} (c : EReal) (q : Fin d → EReal) (K : Fin n → Fin d → EReal) : Fin n → EReal :=
  softmax (logits c q K)

/-- The attention output of one query row: its weights' combination of the rows of `V`. -/
def attnOut {n d : Nat} (c : EReal) (q : Fin d → EReal) (K V : Fin n → Fin d → EReal) : Fin d → EReal :=
  fun e => ∑ k : Fin n, attnWeights c q K k * V k e

/-- The maximum with ⊥ in front is the maximum. -/
theorem max_bot_left (x : EReal) : max ⊥ x = x := max_eq_right bot_le

/-! ## The two results over whole arrays

Over [4, 16, 2048, 128] arrays `Q`, `K`, `V` (batch, head, position, feature): the weights at (b, h, q, k) are
the attention weights of row (b, h, q) of `Q` against the matrix (b, h) of `K`, read at k; the output at
(b, h, q, e) is that row's output over the matrix (b, h) of `V`, read at e. -/

open Idealize.ShloMosaic.ValueIdx

/-- Row (b, h, q) of a [4, 16, 2048, 128] array. -/
def row4 (X : (⟨4, ![4, 16, 2048, 128]⟩ : Shape).Idx → EReal) (b : Fin 4) (h : Fin 16) (q : Fin 2048) : Fin 128 → EReal :=
  fun e => X (ix4 b h q e)

/-- The [2048, 128] matrix (b, h) of a [4, 16, 2048, 128] array. -/
def mat4 (X : (⟨4, ![4, 16, 2048, 128]⟩ : Shape).Idx → EReal) (b : Fin 4) (h : Fin 16) : Fin 2048 → Fin 128 → EReal :=
  fun k e => X (ix4 b h k e)

/-- The attention weights, a [4, 16, 2048, 2048] array. -/
def weights4 (c : EReal) (Q K : (⟨4, ![4, 16, 2048, 128]⟩ : Shape).Idx → EReal) :
    (⟨4, ![4, 16, 2048, 2048]⟩ : Shape).Idx → EReal :=
  fun i => attnWeights c (row4 Q (i 0) (i 1) (i 2)) (mat4 K (i 0) (i 1)) (i 3)

/-- The attention output, a [4, 16, 2048, 128] array. -/
def out4 (c : EReal) (Q K V : (⟨4, ![4, 16, 2048, 128]⟩ : Shape).Idx → EReal) :
    (⟨4, ![4, 16, 2048, 128]⟩ : Shape).Idx → EReal :=
  fun i => attnOut c (row4 Q (i 0) (i 1) (i 2)) (mat4 K (i 0) (i 1)) (mat4 V (i 0) (i 1)) (i 3)

end Cert.Attention

end
-- ==== Proof.Consts.lean ====
/-
  The float constants the two programs spell, as the extended reals they denote.

  The reference divides its logits by the f32 nearest to √128, the dyadic 11863283 / 2^20; the kernel multiplies
  its queries by the f32 nearest to 1 / √128, which the certificate's table reads as the reciprocal of that same
  dyadic, 2^20 / 11863283 (`scale`).  So dividing by the reference's constant is multiplying by `scale`, on every
  extended real (`div_divisor`).  The pattern both programs start their row maximum from is −∞, the bottom of the
  order (`ofBits_neg_inf`).
-/
import Idealize.ShloMosaic.PureOps.Ideal

noncomputable section

namespace Cert.Attention

open Idealize.ShloMosaic

/-- The scale of the logits: the reciprocal of the reference's divisor. -/
def scale : ℝ := 1048576 / 11863283

theorem scale_nonneg : 0 ≤ scale := by unfold scale; positivity

/-- The reference's divisor, the f32 nearest to √128, denotes 11863283 / 2^20. -/
theorem ofBits_divisor : Ideal.ofBits .f32 0x413504F3#32 = ((11863283 / 1048576 : ℝ) : EReal) := by
  simp [Ideal.ofBits, Ideal.ieee, -EReal.coe_mul]; norm_num

/-- The pattern of −∞ denotes the bottom of the extended reals. -/
theorem ofBits_neg_inf : Ideal.ofBits .f32 0xFF800000#32 = ⊥ := by
  simp [Ideal.ofBits, Ideal.ieee]

/-- Dividing by the reference's constant is multiplying by `scale`. -/
theorem div_divisor (x : EReal) : Ideal.div x (Ideal.ofBits .f32 0x413504F3#32) = x * (scale : EReal) := by
  rw [ofBits_divisor, Ideal.div_coe (by norm_num : (11863283 / 1048576 : ℝ) ≠ 0)]
  congr 2
  unfold scale; norm_num

end Cert.Attention

end
-- ==== Proof.Reference.lean ====
/-
  The reference's two results, index by index: its attention weights at (b, h, q, k) are the softmax, over the
  keys, of row (b, h, q) of the queries against the keys of (b, h) at the scale 1 / D, where D is the constant it
  divides by; its output is those weights' combination of the values of (b, h).

  The reference divides the unscaled logits by D, which is the product with `scale`; it takes the row maximum as a
  fold of `max` from −∞ and then the maximum of that with −∞ once more, which changes nothing; its row sum starts
  from 0.  Each remaining stage is one element of its operands, read by the generated stage lemmas.
-/
import proofs.«411824_j29094108463701_3_alg».proof.Proof.Gen.ReferenceIdeal.Read
import proofs.«411824_j29094108463701_3_alg».proof.Proof.Softmax
import proofs.«411824_j29094108463701_3_alg».proof.Proof.Consts

noncomputable section

namespace Cert.Attention.Ref

open Cert.ReferenceIdeal Cert.ReferenceIdeal.Gen Cert.ReferenceIdeal.Read
open Idealize.ShloMosaic Idealize.ShloMosaic.ValueIdx Cert.Attention

/-- A [4, 16, 2048, 128] argument array at the ideal values. -/
abbrev Arr : Type := (⟨S4x16x2048x128, .f32⟩ : BufTy).Contents (Elt Ideal)

variable (Q K V : Arr)

/-- The first contraction reads the query at (b, h, q, ·) … -/
theorem lidx_logit (i : S4x16x2048x2048.Idx) (e : Fin 128) : lidx_main_v0 i e = ix4 (i 0) (i 1) (i 2) e :=
  funext fun a => Fin.ext (by match a with | ⟨0, _⟩ => rfl | ⟨1, _⟩ => rfl | ⟨2, _⟩ => rfl | ⟨3, _⟩ => rfl)

/-- … and the key at (b, h, k, ·). -/
theorem ridx_logit (i : S4x16x2048x2048.Idx) (e : Fin 128) : ridx_main_v0 i e = ix4 (i 0) (i 1) (i 3) e :=
  funext fun a => Fin.ext (by match a with | ⟨0, _⟩ => rfl | ⟨1, _⟩ => rfl | ⟨2, _⟩ => rfl | ⟨3, _⟩ => rfl)

/-- The reference's scaled logits: the contraction over the features, divided by D. -/
theorem logit_eq (i : S4x16x2048x2048.Idx) :
    val_main_v2 (F := Ideal) Q K i = logits (scale : EReal) (row4 Q (i 0) (i 1) (i 2)) (mat4 K (i 0) (i 1)) (i 3) := by
  rw [val_main_v2_apply, val_main_v0_apply, val_main_v1_apply, val_main_cst_apply]
  simp only [lidx_logit, ridx_logit, Ideal.hostDivf_def, Ideal.ofBits_def]
  exact div_divisor _

/-- The key axis of the logits is reduced away. -/
theorem keys_reduce : S4x16x2048x2048.Reduces [3] S4x16x2048 := by decide

/-- The reference's row maximum: the fold from −∞ over the keys, and −∞ once more in front. -/
theorem rowmax_eq (j : S4x16x2048.Idx) :
    val_main_v5 (F := Ideal) Q K j = rowMax (logits (scale : EReal) (row4 Q (j 0) (j 1) (j 2)) (mat4 K (j 0) (j 1))) := by
  rw [val_main_v5_apply, val_main_v4_apply, val_main_cst_1_apply]
  unfold val_main_v3
  rw [Host.reduce_eq_fold_single FloatOps.maximumf _ _ reducesTo_S4x16x2048x2048_S4x16x2048_d3 keys_reduce h_S_]
  have hrow : (val_main_v2 (F := Ideal) Q K ∘ keys_reduce.lift j)
      = logits (scale : EReal) (row4 Q (j 0) (j 1) (j 2)) (mat4 K (j 0) (j 1)) := by
    funext k
    show val_main_v2 (F := Ideal) Q K (keys_reduce.lift j k) = _
    rw [logit_eq]
    rfl
  rw [hrow]
  show max (Ideal.ofBits .f32 0xFF800000#32) (Finset.fold max (Ideal.ofBits .f32 0xFF800000#32) _ Finset.univ) = _
  rw [ofBits_neg_inf, max_bot_left]
  rfl

/-- The exponential of a logit shifted by its row's maximum. -/
theorem shifted_eq (i : S4x16x2048x2048.Idx) :
    val_main_v9 (F := Ideal) Q K i
      = Ideal.exp (logits (scale : EReal) (row4 Q (i 0) (i 1) (i 2)) (mat4 K (i 0) (i 1)) (i 3)
          - rowMax (logits (scale : EReal) (row4 Q (i 0) (i 1) (i 2)) (mat4 K (i 0) (i 1)))) := by
  rw [val_main_v9_apply, val_main_v8_apply, logit_eq, val_main_v7_apply, val_main_v6_apply, rowmax_eq]
  rfl

/-- THE WEIGHTS: the reference's second result is the attention weights. -/
theorem weights_eq : val_main_v13 (F := Ideal) Q K = weights4 (scale : EReal) Q K := by
  funext i
  rw [val_main_v13_apply, val_main_v12_apply, val_main_v11_apply, val_main_v10_apply, val_main_cst_2_apply]
  simp only [shifted_eq]
  rw [Ideal.hostDivf_def, Ideal.ofBits_def, Ideal.ofBits_zero_f32, zero_add]
  rfl

/-- The second contraction reads the weights at (b, h, q, k) … -/
theorem lidx_out (i : S4x16x2048x128.Idx) (k : Fin 2048) : lidx_main_v14 i k = ix4 (i 0) (i 1) (i 2) k :=
  funext fun a => Fin.ext (by match a with | ⟨0, _⟩ => rfl | ⟨1, _⟩ => rfl | ⟨2, _⟩ => rfl | ⟨3, _⟩ => rfl)

/-- … and the value at (b, h, k, e). -/
theorem ridx_out (i : S4x16x2048x128.Idx) (k : Fin 2048) : ridx_main_v14 i k = ix4 (i 0) (i 1) k (i 3) :=
  funext fun a => Fin.ext (by match a with | ⟨0, _⟩ => rfl | ⟨1, _⟩ => rfl | ⟨2, _⟩ => rfl | ⟨3, _⟩ => rfl)

/-- THE OUTPUT: the reference's first result is the attention output. -/
theorem out_eq : val_main_v14 (F := Ideal) Q K V = out4 (scale : EReal) Q K V := by
  funext i
  rw [val_main_v14_apply, weights_eq]
  simp only [lidx_out, ridx_out]
  rfl

end Cert.Attention.Ref

end
-- ==== Proof.LibKeepdims.lean ====
/-
  A column kept by a row reduction, read at an index.

  A reduction over the last axis with the axis kept (`jnp.max(x, axis=-1, keepdims=True)`, `jnp.sum(…, keepdims=True)`)
  prints as the reduction to `[a]`, a cast to the column `[a, 1]`, and a broadcast of the column along the rows to
  `[a, b]`.  Read at `(i, j)` the result is the reduced vector at `i`, whatever `j`: the cast keeps row-major order
  (`shapeCast_a_a1_apply`) and the broadcast repeats the column's one entry of row `i` (`broadcastTo_a1_ab_apply`).
  Both hold at any extents `a`, `b`, the degenerate `a = 1` included, and for any element type.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.Keepdims
-- ==== Proof.Payload.lean ====
/-
  What the kernel's body computes on one grid point's blocks, index by index.

  At a grid point the body holds a [1, 256, 128] block `x0` of queries and the [1, 2048, 128] blocks `x1`, `x2` of
  its head's keys and values.  It scales the queries by the constant the certificate's table names `scale`,
  contracts them with the keys over the features, takes each row's maximum from −∞, exponentiates the shifted
  logits, sums each row from 0 and divides: row r of the [256, 2048] result is the attention weights of query row
  r against the key block (`weights_apply`), by the scale law of the extended reals (a nonnegative finite factor
  leaves any sum).  The second contraction combines the value block's rows by those weights: row r of the
  [256, 128] result is that query row's attention output (`out_apply`).  Changes of float format are the identity
  at the ideal values, and both matrix products accumulate into a zero block.
-/
import proofs.«411824_j29094108463701_3_alg».proof.Proof.Gen.KernelIdeal.Skeleton
import proofs.«411824_j29094108463701_3_alg».proof.Proof.Softmax
import proofs.«411824_j29094108463701_3_alg».proof.Proof.Consts
import proofs.«411824_j29094108463701_3_alg».proof.Proof.LibKeepdims
import proofs.«411824_j29094108463701_3_alg».proof.Proof.LibERealSum
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.Attention.Kernel

open Cert.KernelIdeal Cert.KernelIdeal.Gen
open Idealize.ShloMosaic Idealize.ShloMosaic.ValueIdx Cert.Attention
open Cert.Lib.Keepdims Cert.Lib.ERealSum

/-! ## The scale -/

/-- The constant the kernel scales its queries by denotes `scale`, by the certificate's table. -/
theorem named_scale :
    Named.named (F := Ideal) κ "fold_c_1048576_11863283" (φ := .f32) 0x3DB504F3#32 = (scale : EReal) :=
  IdealRules.named_const.ideal_named_scalar _ _ _ _ rfl

/-! ## The two contractions at an index -/

theorem lhs_qk_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_qk_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhs_qk_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_qk_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

/-- Queries against keys into a zero block: at (r, j) the sum over the features of query row r times key row j. -/
theorem qk_apply (a : FVec Ideal S256x128 .bf16) (b : FVec Ideal S2048x128 .bf16) (r : Fin 256) (j : Fin 2048) :
    matmul dot_S256x128_S2048x128_S256x2048_1_1_0_0_n_n none a b (constant S256x2048 .f32 0x00000000#32) (ix2 r j)
      = ∑ e : Fin 128, a (ix2 r e) * b (ix2 j e) := by
  simp only [matmul]
  rw [Ideal.matmul_constant_zero_apply, ← Equiv.sum_comp (contrEquiv1 dot_S256x128_S2048x128_S256x2048_1_1_0_0_n_n 128 rfl rfl).symm]
  refine Finset.sum_congr rfl fun k _ => ?_
  have hk := contrEquiv1_symm_val dot_S256x128_S2048x128_S256x2048_1_1_0_0_n_n 128 rfl rfl k
  have el : dot_S256x128_S2048x128_S256x2048_1_1_0_0_n_n.lhsIdx (ix2 r j) ((contrEquiv1 dot_S256x128_S2048x128_S256x2048_1_1_0_0_n_n 128 rfl rfl).symm k) = ix2 r k := funext fun ax => Fin.ext (by
    match ax with
    | ⟨0, _⟩ => exact lhs_qk_0 _ _
    | ⟨1, _⟩ => exact (lhs_qk_1 _ _).trans hk)
  have er : dot_S256x128_S2048x128_S256x2048_1_1_0_0_n_n.rhsIdx (ix2 r j) ((contrEquiv1 dot_S256x128_S2048x128_S256x2048_1_1_0_0_n_n 128 rfl rfl).symm k) = ix2 j k := funext fun ax => Fin.ext (by
    match ax with
    | ⟨0, _⟩ => exact rhs_qk_0 _ _
    | ⟨1, _⟩ => exact (rhs_qk_1 _ _).trans hk)
  rw [el, er]

theorem lhs_pv_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem lhs_pv_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
theorem rhs_pv_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
theorem rhs_pv_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- Weights against values into a zero block: at (r, e) the sum over the keys of weight (r, k) times value (k, e). -/
theorem pv_apply (a : FVec Ideal S256x2048 .bf16) (b : FVec Ideal S2048x128 .bf16) (r : Fin 256) (e : Fin 128) :
    matmul dot_S256x2048_S2048x128_S256x128_1_0_0_1_n_n none a b (constant S256x128 .f32 0x00000000#32) (ix2 r e)
      = ∑ k : Fin 2048, a (ix2 r k) * b (ix2 k e) := by
  simp only [matmul]
  rw [Ideal.matmul_constant_zero_apply, ← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 r e) ((contrEquiv1 dot_S256x2048_S2048x128_S256x128_1_0_0_1_n_n 2048 rfl rfl).symm k) = ix2 r k := funext fun ax => Fin.ext (by
    match ax with
    | ⟨0, _⟩ => exact lhs_pv_0 _ _
    | ⟨1, _⟩ => exact (lhs_pv_1 _ _).trans hk)
  have er : dot_S256x2048_S2048x128_S256x128_1_0_0_1_n_n.rhsIdx (ix2 r e) ((contrEquiv1 dot_S256x2048_S2048x128_S256x128_1_0_0_1_n_n 2048 rfl rfl).symm k) = ix2 k e := funext fun ax => Fin.ext (by
    match ax with
    | ⟨0, _⟩ => exact (rhs_pv_0 _ _).trans hk
    | ⟨1, _⟩ => exact rhs_pv_1 _ _)
  rw [el, er]

/-! ## A row's maximum and a row's sum, kept as a column and broadcast back -/

/-- The key index put back into a row's index. -/
theorem lift_row (r : Fin 256) (k : Fin 2048) : reduces_S256x2048_S256.lift (ix1 r) k = ix2 r k :=
  funext fun ax => Fin.ext (by match ax with | ⟨0, _⟩ => rfl | ⟨1, _⟩ => rfl)

/-- Each row's maximum from −∞, kept as a column and broadcast along the row, as the body spells it. -/
def rowMaxBlock (L : FVec Ideal S256x2048 .f32) : FVec Ideal S256x2048 .f32 :=
  broadcastTo S256x2048 (shapeCast S256x1 (multiReduction .maximumf [1] S256 L 0xFF800000#32 reduces_S256x2048_S256 (.inl rfl) rfl)
    shapeCasts_S256_S256x1) broadcasts_S256x1_S256x2048

/-- Each row's sum from 0, kept as a column and broadcast along the row, as the body spells it. -/
def rowSumBlock (E : FVec Ideal S256x2048 .f32) : FVec Ideal S256x2048 .f32 :=
  broadcastTo S256x2048 (shapeCast S256x1 (multiReduction .add [1] S256 E 0x00000000#32 reduces_S256x2048_S256 (.inl rfl) rfl)
    shapeCasts_S256_S256x1) broadcasts_S256x1_S256x2048

theorem rowMaxBlock_apply (L : FVec Ideal S256x2048 .f32) (r : Fin 256) (j : Fin 2048) :
    rowMaxBlock L (ix2 r j) = rowMax fun k : Fin 2048 => L (ix2 r k) := by
  unfold rowMaxBlock
  refine (broadcastTo_a1_ab_apply _ _ r j).trans ((shapeCast_a_a1_apply _ _ r 0).trans
    ((Ideal.multiReduction_maximumf_single L 0xFF800000#32 reduces_S256x2048_S256 _ _ (ix1 r)).trans ?_))
  show Finset.fold max (Ideal.ofBits .f32 0xFF800000#32) (L ∘ reduces_S256x2048_S256.lift (ix1 r)) Finset.univ = _
  rw [ofBits_neg_inf, show (L ∘ reduces_S256x2048_S256.lift (ix1 r)) = fun k : Fin 2048 => L (ix2 r k) from
    funext fun k => congrArg L (lift_row r k)]
  rfl

theorem rowSumBlock_apply (E : FVec Ideal S256x2048 .f32) (r : Fin 256) (j : Fin 2048) :
    rowSumBlock E (ix2 r j) = ∑ k : Fin 2048, E (ix2 r k) := by
  unfold rowSumBlock
  refine (broadcastTo_a1_ab_apply _ _ r j).trans ((shapeCast_a_a1_apply _ _ r 0).trans
    ((Ideal.multiReduction_add_single E 0x00000000#32 reduces_S256x2048_S256 _ _ (ix1 r)).trans ?_))
  exact Finset.sum_congr rfl fun k _ => congrArg E (lift_row r k)

/-- The softmax of every row of a [256, 2048] block, as the body spells it. -/
def softmaxBlock (L : FVec Ideal S256x2048 .f32) : FVec Ideal S256x2048 .f32 :=
  divf (exp (subf L (rowMaxBlock L))) (rowSumBlock (exp (subf L (rowMaxBlock L))))

/-- Row r of it is the softmax of row r. -/
theorem softmaxBlock_apply (L : FVec Ideal S256x2048 .f32) (r : Fin 256) (j : Fin 2048) :
    softmaxBlock L (ix2 r j) = softmax (fun k : Fin 2048 => L (ix2 r k)) j := by
  unfold softmaxBlock
  rw [divf_apply, rowSumBlock_apply]
  show Ideal.div (Ideal.exp (L (ix2 r j) - rowMaxBlock L (ix2 r j))) (∑ k : Fin 2048, Ideal.exp (L (ix2 r k) - rowMaxBlock L (ix2 r k))) = _
  simp only [rowMaxBlock_apply]
  rfl

/-! ## The body's two results -/

/-- Row r of the query block, and the rows of a key or value block. -/
def qrow (x0 : Vec Ideal S1x256x128 .f32) (r : Fin 256) : Fin 128 → EReal := fun e => x0 (ix3 (0 : Fin 1) r e)
def kmat (x1 : Vec Ideal S1x2048x128 .f32) : Fin 2048 → Fin 128 → EReal := fun k e => x1 (ix3 (0 : Fin 1) k e)

/-- The scaled queries against the keys, as the body spells it. -/
def blockLogits (x0 : Vec Ideal S1x256x128 .f32) (x1 : Vec Ideal S1x2048x128 .f32) : FVec Ideal S256x2048 .f32 :=
  matmul dot_S256x128_S2048x128_S256x2048_1_1_0_0_n_n none
    (truncf .bf16 (mulf (shapeCast S256x128 x0 shapeCasts_S1x256x128_S256x128)
      (broadcast S256x128 (Named.named (F := Ideal) κ "fold_c_1048576_11863283" (φ := .f32) 0x3DB504F3#32))) bitsLt_bf16_f32)
    (truncf .bf16 (shapeCast S2048x128 x1 shapeCasts_S1x2048x128_S2048x128) bitsLt_bf16_f32)
    (constant (F := Ideal) S256x2048 .f32 0x00000000#32)

/-- Entry (r, k) of it is the logit of query row r against key row k at `scale`: the scale leaves the sum. -/
theorem blockLogits_apply (x0 : Vec Ideal S1x256x128 .f32) (x1 : Vec Ideal S1x2048x128 .f32) (r : Fin 256) (k : Fin 2048) :
    blockLogits x0 x1 (ix2 r k) = logits (scale : EReal) (qrow x0 r) (kmat x1) k := by
  unfold blockLogits
  rw [qk_apply]
  refine (Finset.sum_congr rfl fun e _ => ?_).trans (scaled_dot (qrow x0 r) (kmat x1 k) scale_nonneg)
  rw [truncf_apply, truncf_apply, mulf_apply, broadcast_apply, shapeCast_1ab_ab_apply, shapeCast_1ab_ab_apply, named_scale]
  rfl

/-- The body's weights are the softmax of its logits, row by row. -/
theorem pay1_eq (x0 : Vec Ideal S1x256x128 .f32) (x1 : Vec Ideal S1x2048x128 .f32) :
    k0_pay1 (F := Ideal) x0 x1 = softmaxBlock (blockLogits x0 x1) := rfl

/-- THE WEIGHTS at (r, j): the attention weights of query row r against the key block, read at j. -/
theorem pay1_apply (x0 : Vec Ideal S1x256x128 .f32) (x1 : Vec Ideal S1x2048x128 .f32) (r : Fin 256) (j : Fin 2048) :
    k0_pay1 (F := Ideal) x0 x1 (ix2 r j) = attnWeights (scale : EReal) (qrow x0 r) (kmat x1) j := by
  rw [pay1_eq, softmaxBlock_apply]
  unfold attnWeights
  rw [show (fun k : Fin 2048 => blockLogits x0 x1 (ix2 r k)) = logits (scale : EReal) (qrow x0 r) (kmat x1) from
    funext fun k => blockLogits_apply x0 x1 r k]

/-- What the body stores to the weights' block. -/
theorem weights_apply (x0 : Vec Ideal S1x256x128 .f32) (x1 : Vec Ideal S1x2048x128 .f32) (u : Fin 1) (r : Fin 256) (j : Fin 2048) :
    k0_pay2 (F := Ideal) x0 x1 (ix3 u r j) = attnWeights (scale : EReal) (qrow x0 r) (kmat x1) j := by
  unfold k0_pay2
  rw [shapeCast_ab_1ab_apply, pay1_apply]

/-- THE OUTPUT at (r, e): what the body stores to the output's block is query row r's attention output. -/
theorem out_apply (x0 : Vec Ideal S1x256x128 .f32) (x1 x2 : Vec Ideal S1x2048x128 .f32) (u : Fin 1) (r : Fin 256) (e : Fin 128) :
    k0_pay3 (F := Ideal) x0 x1 x2 (ix3 u r e) = attnOut (scale : EReal) (qrow x0 r) (kmat x1) (kmat x2) e := by
  unfold k0_pay3
  rw [shapeCast_ab_1ab_apply, pv_apply]
  unfold attnOut
  refine Finset.sum_congr rfl fun k _ => ?_
  rw [truncf_apply, truncf_apply, pay1_apply, shapeCast_1ab_ab_apply]
  rfl

end Cert.Attention.Kernel

end
-- ==== Proof.Heads.lean ====
/-
  The same attention with batch and head flattened into one axis, and the two reshapes between the layouts.

  The kernel works on [64, 2048, ·] arrays, the 4 batches' 16 heads laid out one after the other: head
  n = 16 b + h.  Row-major order makes entry (n, q, e) of the flattened array entry (b, h, q, e) of the [4, 16, 2048, ·]
  one (`flatten_apply`, `unflatten_apply`), so a row or a matrix of a head is the same row or matrix in either
  layout, and the attention weights and output of the flattened arrays, put back into four axes, are the weights
  and output of the four-axis arrays (`weights_unflatten`, `out_unflatten`).
-/
import proofs.«411824_j29094108463701_3_alg».proof.Proof.Softmax
import Idealize.ShloMosaic.Lib.Pipeline.Value
import Idealize.ShloMosaic.Lib.ValueIdx

noncomputable section

namespace Cert.Attention

open Idealize.ShloMosaic Idealize.ShloMosaic.ValueIdx

/-- Row (n, q) of a [64, 2048, 128] array. -/
def row3 (X : (⟨3, ![64, 2048, 128]⟩ : Shape).Idx → EReal) (n : Fin 64) (q : Fin 2048) : Fin 128 → EReal :=
  fun e => X (ix3 n q e)

/-- The [2048, 128] matrix of head n of a [64, 2048, 128] array. -/
def mat3 (X : (⟨3, ![64, 2048, 128]⟩ : Shape).Idx → EReal) (n : Fin 64) : Fin 2048 → Fin 128 → EReal :=
  fun k e => X (ix3 n k e)

/-- The attention weights over flattened heads, a [64, 2048, 2048] array. -/
def weights3 (c : EReal) (Q K : (⟨3, ![64, 2048, 128]⟩ : Shape).Idx → EReal) :
    (⟨3, ![64, 2048, 2048]⟩ : Shape).Idx → EReal :=
  fun i => attnWeights c (row3 Q (i 0) (i 1)) (mat3 K (i 0)) (i 2)

/-- The attention output over flattened heads, a [64, 2048, 128] array. -/
def out3 (c : EReal) (Q K V : (⟨3, ![64, 2048, 128]⟩ : Shape).Idx → EReal) :
    (⟨3, ![64, 2048, 128]⟩ : Shape).Idx → EReal :=
  fun i => attnOut c (row3 Q (i 0) (i 1)) (mat3 K (i 0)) (mat3 V (i 0)) (i 2)

/-- Head h of batch b among the 64 flattened heads. -/
def headOf (b : Fin 4) (h : Fin 16) : Fin 64 := ⟨16 * b.val + h.val, by omega⟩

/-- A [4, 16, 2048, 128] array flattened to [64, 2048, 128] reads, at (16 b + h, q, e), the operand at (b, h, q, e). -/
theorem flatten_apply (X : (⟨4, ![4, 16, 2048, 128]⟩ : Shape).Idx → EReal)
    (hc : (⟨4, ![4, 16, 2048, 128]⟩ : Shape).ShapeCasts ⟨3, ![64, 2048, 128]⟩)
    (b : Fin 4) (h : Fin 16) (q : Fin 2048) (e : Fin 128) :
    shapeCast ⟨3, ![64, 2048, 128]⟩ X hc (ix3 (headOf b h) q e) = X (ix4 b h q e) :=
  shapeCast_apply X hc _ _ (by
    rw [Shape.rowMajor_val_four, Shape.rowMajor_val_three]
    show ((b.val * 16 + h.val) * 2048 + q.val) * 128 + e.val = ((16 * b.val + h.val) * 2048 + q.val) * 128 + e.val
    rw [Nat.mul_comm 16 b.val])

/-- A [64, 2048, d] array put back into [4, 16, 2048, d] reads, at (b, h, q, e), the operand at (16 b + h, q, e). -/
theorem unflatten_apply {d : ℕ} (Y : (⟨3, ![64, 2048, d]⟩ : Shape).Idx → EReal)
    (hc : (⟨3, ![64, 2048, d]⟩ : Shape).ShapeCasts ⟨4, ![4, 16, 2048, d]⟩)
    (i : (⟨4, ![4, 16, 2048, d]⟩ : Shape).Idx) :
    shapeCast ⟨4, ![4, 16, 2048, d]⟩ Y hc i = Y (ix3 (headOf (i 0) (i 1)) (i 2) (i 3)) :=
  shapeCast_apply Y hc _ _ (by
    rw [Shape.rowMajor_val_three, Shape.rowMajor_val_four]
    show ((16 * (i 0).val + (i 1).val) * 2048 + (i 2).val) * d + (i 3).val
      = (((i 0).val * 16 + (i 1).val) * 2048 + (i 2).val) * d + (i 3).val
    rw [Nat.mul_comm 16 (i 0).val])

/-- A row of a head is the same row in either layout … -/
theorem row3_flatten (X : (⟨4, ![4, 16, 2048, 128]⟩ : Shape).Idx → EReal)
    (hc : (⟨4, ![4, 16, 2048, 128]⟩ : Shape).ShapeCasts ⟨3, ![64, 2048, 128]⟩) (b : Fin 4) (h : Fin 16) (q : Fin 2048) :
    row3 (shapeCast ⟨3, ![64, 2048, 128]⟩ X hc) (headOf b h) q = row4 X b h q :=
  funext fun e => flatten_apply X hc b h q e

/-- … and so is its matrix. -/
theorem mat3_flatten (X : (⟨4, ![4, 16, 2048, 128]⟩ : Shape).Idx → EReal)
    (hc : (⟨4, ![4, 16, 2048, 128]⟩ : Shape).ShapeCasts ⟨3, ![64, 2048, 128]⟩) (b : Fin 4) (h : Fin 16) :
    mat3 (shapeCast ⟨3, ![64, 2048, 128]⟩ X hc) (headOf b h) = mat4 X b h :=
  funext fun k => funext fun e => flatten_apply X hc b h k e

/-- The weights of the flattened arrays, put back into four axes, are the weights of the four-axis arrays. -/
theorem weights_unflatten (c : EReal) (Q K : (⟨4, ![4, 16, 2048, 128]⟩ : Shape).Idx → EReal)
    (hq : (⟨4, ![4, 16, 2048, 128]⟩ : Shape).ShapeCasts ⟨3, ![64, 2048, 128]⟩)
    (hw : (⟨3, ![64, 2048, 2048]⟩ : Shape).ShapeCasts ⟨4, ![4, 16, 2048, 2048]⟩) :
    shapeCast ⟨4, ![4, 16, 2048, 2048]⟩
        (weights3 c (shapeCast ⟨3, ![64, 2048, 128]⟩ Q hq) (shapeCast ⟨3, ![64, 2048, 128]⟩ K hq)) hw
      = weights4 c Q K := by
  funext i
  rw [unflatten_apply]
  show attnWeights c (row3 _ (headOf (i 0) (i 1)) (i 2)) (mat3 _ (headOf (i 0) (i 1))) (i 3)
    = attnWeights c (row4 Q (i 0) (i 1) (i 2)) (mat4 K (i 0) (i 1)) (i 3)
  exact congrArg₂ (fun f M => attnWeights c f M (i 3)) (row3_flatten Q hq (i 0) (i 1) (i 2))
    (mat3_flatten K hq (i 0) (i 1))

/-- The output of the flattened arrays, put back into four axes, is the output of the four-axis arrays. -/
theorem out_unflatten (c : EReal) (Q K V : (⟨4, ![4, 16, 2048, 128]⟩ : Shape).Idx → EReal)
    (hq : (⟨4, ![4, 16, 2048, 128]⟩ : Shape).ShapeCasts ⟨3, ![64, 2048, 128]⟩)
    (ho : (⟨3, ![64, 2048, 128]⟩ : Shape).ShapeCasts ⟨4, ![4, 16, 2048, 128]⟩) :
    shapeCast ⟨4, ![4, 16, 2048, 128]⟩
        (out3 c (shapeCast ⟨3, ![64, 2048, 128]⟩ Q hq) (shapeCast ⟨3, ![64, 2048, 128]⟩ K hq)
          (shapeCast ⟨3, ![64, 2048, 128]⟩ V hq)) ho
      = out4 c Q K V := by
  funext i
  rw [unflatten_apply]
  show attnOut c (row3 _ (headOf (i 0) (i 1)) (i 2)) (mat3 _ (headOf (i 0) (i 1))) (mat3 _ (headOf (i 0) (i 1))) (i 3)
    = attnOut c (row4 Q (i 0) (i 1) (i 2)) (mat4 K (i 0) (i 1)) (mat4 V (i 0) (i 1)) (i 3)
  exact (congrArg₂ (fun f M => attnOut c f M (mat3 (shapeCast ⟨3, ![64, 2048, 128]⟩ V hq) (headOf (i 0) (i 1))) (i 3))
      (row3_flatten Q hq (i 0) (i 1) (i 2)) (mat3_flatten K hq (i 0) (i 1))).trans
    (congrArg (fun N => attnOut c (row4 Q (i 0) (i 1) (i 2)) (mat4 K (i 0) (i 1)) N (i 3))
      (mat3_flatten V hq (i 0) (i 1)))

end Cert.Attention

end
-- ==== Proof.Blocks.lean ====
/-
  From the kernel's blocks to its two result arrays.

  The grid has 64 · 8 points; point t works on head t / 8 and on query rows 256 (t % 8) … 256 (t % 8) + 255.  Its
  query block is those rows of the head's queries, its key and value blocks are the head's whole [2048, 128]
  matrices, and it writes back the same rows of the two results (`idx_facts`: the printed index maps, decided once
  over the grid).  What the body leaves at a point is therefore the attention weights and the attention output of
  those query rows against the head's keys and values (`flushed_weights`, `flushed_out`): each written block is the
  matching block of ONE function of the arrays the region finds, `weights3` and `out3`.  Every row of every head is in
  exactly the block of point 8 n + q / 256, so the written blocks cover both arrays and the arrays end holding those
  functions (`final_weights`, `final_out`).  The arrays the region finds are the three arguments flattened to 64
  heads (`Q3_eq`, `K3_eq`, `V3_eq`).
-/
import proofs.«411824_j29094108463701_3_alg».proof.Proof.Gen.KernelIdeal.Frame
import proofs.«411824_j29094108463701_3_alg».proof.Proof.Payload
import proofs.«411824_j29094108463701_3_alg».proof.Proof.Heads
import Idealize.ShloMosaic.Lib.Pipeline.Value
import Idealize.ShloMosaic.Lib.StableHlo.Run
import Idealize.ShloMosaic.Lib.Tactic

set_option maxRecDepth 16384

noncomputable section

namespace Cert.Attention.Kernel

open Cert.KernelIdeal Cert.KernelIdeal.Gen
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ)

/-- The queries, keys and values as the region finds them: [64, 2048, 128] arrays. -/
abbrev Q3 (c : Dev nD) : Vec Ideal S64x2048x128 .f32 := V m c main_v0
abbrev K3 (c : Dev nD) : Vec Ideal S64x2048x128 .f32 := V m c main_v1
abbrev V3 (c : Dev nD) : Vec Ideal S64x2048x128 .f32 := V m c main_v2

theorem hz : (![0, 0, 0] : Fin 3 → Nat) = fun _ => 0 := funext fun a => by fin_cases a <;> rfl

/-- The printed index maps over the grid: point t is head t / 8 and row block t % 8; the key and value windows
    take the head's whole matrix; nothing is blocked along the last axis. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-! ## The input blocks as rows of the arrays -/

/-- The query block at point t: rows 256 (t % 8) … of head t / 8. -/
theorem iblk0_apply (c : Dev nD) (t : Fin cfg0.N) (x : S1x256x128.Idx) (k : S64x2048x128.Idx)
    (h0 : (k 0).val = t.val / 8) (h1 : (k 1).val = 256 * (t.val % 8) + (x 1).val) (h2 : (k 2).val = (x 2).val) :
    (iblk m c 0 t : Vec Ideal S1x256x128 .f32) x = Q3 m c k := by
  obtain ⟨e0, e1, e2, -⟩ := idx_facts t
  have hx : (x 0).val < 1 := (x 0).isLt
  unfold iblk
  rw [View.read_apply]
  show V m c main_v0 _ = V m c main_v0 k
  congr 1
  funext a
  apply Fin.ext
  match a with
  | ⟨0, _⟩ => show win0_0.index t 0 * 1 + 1 * (x 0).val = (k 0).val; rw [e0, h0]; omega
  | ⟨1, _⟩ => show win0_0.index t 1 * 256 + 1 * (x 1).val = (k 1).val; rw [e1, h1]; omega
  | ⟨2, _⟩ => show win0_0.index t 2 * 128 + 1 * (x 2).val = (k 2).val; rw [e2, h2]; omega

/-- The key block at point t: the whole matrix of head t / 8. -/
theorem iblk1_apply (c : Dev nD) (t : Fin cfg0.N) (x : S1x2048x128.Idx) (k : S64x2048x128.Idx)
    (h0 : (k 0).val = t.val / 8) (h1 : (k 1).val = (x 1).val) (h2 : (k 2).val = (x 2).val) :
    (iblk m c 1 t : Vec Ideal S1x2048x128 .f32) x = K3 m c k := by
  obtain ⟨-, -, -, e0, e1, e2, -⟩ := idx_facts t
  have hx : (x 0).val < 1 := (x 0).isLt
  unfold iblk
  rw [View.read_apply]
  show V m c main_v1 _ = V m c main_v1 k
  congr 1
  funext a
  apply Fin.ext
  match a with
  | ⟨0, _⟩ => show win0_1.index t 0 * 1 + 1 * (x 0).val = (k 0).val; rw [e0, h0]; omega
  | ⟨1, _⟩ => show win0_1.index t 1 * 2048 + 1 * (x 1).val = (k 1).val; rw [e1, h1]; omega
  | ⟨2, _⟩ => show win0_1.index t 2 * 128 + 1 * (x 2).val = (k 2).val; rw [e2, h2]; omega

/-- The value block at point t: the whole matrix of head t / 8. -/
theorem iblk2_apply (c : Dev nD) (t : Fin cfg0.N) (x : S1x2048x128.Idx) (k : S64x2048x128.Idx)
    (h0 : (k 0).val = t.val / 8) (h1 : (k 1).val = (x 1).val) (h2 : (k 2).val = (x 2).val) :
    (iblk m c 2 t : Vec Ideal S1x2048x128 .f32) x = V3 m c k := by
  obtain ⟨-, -, -, -, -, -, e0, e1, e2, -⟩ := idx_facts t
  have hx : (x 0).val < 1 := (x 0).isLt
  unfold iblk
  rw [View.read_apply]
  show V m c main_v2 _ = V m c main_v2 k
  congr 1
  funext a
  apply Fin.ext
  match a with
  | ⟨0, _⟩ => show win0_2.index t 0 * 1 + 1 * (x 0).val = (k 0).val; rw [e0, h0]; omega
  | ⟨1, _⟩ => show win0_2.index t 1 * 2048 + 1 * (x 1).val = (k 1).val; rw [e1, h1]; omega
  | ⟨2, _⟩ => show win0_2.index t 2 * 128 + 1 * (x 2).val = (k 2).val; rw [e2, h2]; omega

/-- Query row r of point t's block is row 256 (t % 8) + r of head t / 8 … -/
theorem qrow_block (c : Dev nD) (t : Fin cfg0.N) (r : Fin 256) (n : Fin 64) (q : Fin 2048)
    (h0 : n.val = t.val / 8) (h1 : q.val = 256 * (t.val % 8) + r.val) :
    qrow (iblk m c 0 t) r = row3 (Q3 m c) n q :=
  funext fun e => iblk0_apply m c t (ix3 (0 : Fin 1) r e) (ix3 n q e) h0 h1 rfl

/-- … and its key and value blocks are that head's matrices. -/
theorem kmat_block (c : Dev nD) (t : Fin cfg0.N) (n : Fin 64) (h0 : n.val = t.val / 8) :
    kmat (iblk m c 1 t) = mat3 (K3 m c) n :=
  funext fun k => funext fun e => iblk1_apply m c t (ix3 (0 : Fin 1) k e) (ix3 n k e) h0 rfl rfl

theorem vmat_block (c : Dev nD) (t : Fin cfg0.N) (n : Fin 64) (h0 : n.val = t.val / 8) :
    kmat (iblk m c 2 t) = mat3 (V3 m c) n :=
  funext fun k => funext fun e => iblk2_apply m c t (ix3 (0 : Fin 1) k e) (ix3 n k e) h0 rfl rfl

/-! ## What a point writes back -/

/-- The body's weights at a block index, whatever the index's first (unit) coordinate. -/
theorem weights_at (x0 : Vec Ideal S1x256x128 .f32) (x1 : Vec Ideal S1x2048x128 .f32) (y : S1x256x2048.Idx) :
    k0_pay2 (F := Ideal) x0 x1 y = attnWeights (scale : EReal) (qrow x0 (y 1)) (kmat x1) (y 2) := by
  obtain ⟨u, r, j, rfl⟩ : ∃ (u : Fin 1) (r : Fin 256) (j : Fin 2048), y = ix3 u r j := ⟨y 0, y 1, y 2, eq_ix3 y⟩
  exact weights_apply x0 x1 u r j

/-- The body's output at a block index. -/
theorem out_at (x0 : Vec Ideal S1x256x128 .f32) (x1 x2 : Vec Ideal S1x2048x128 .f32) (y : S1x256x128.Idx) :
    k0_pay3 (F := Ideal) x0 x1 x2 y = attnOut (scale : EReal) (qrow x0 (y 1)) (kmat x1) (kmat x2) (y 2) := by
  obtain ⟨u, r, e, rfl⟩ : ∃ (u : Fin 1) (r : Fin 256) (e : Fin 128), y = ix3 u r e := ⟨y 0, y 1, y 2, eq_ix3 y⟩
  exact out_apply x0 x1 x2 u r e

/-- Point t's weights, row r, are `weights3` of the arrays at row 256 (t % 8) + r of head t / 8. -/
theorem weights_block (c : Dev nD) (t : Fin cfg0.N) (r : Fin 256) (j : Fin 2048) (i : S64x2048x2048.Idx)
    (h0 : (i 0).val = t.val / 8) (h1 : (i 1).val = 256 * (t.val % 8) + r.val) (h2 : (i 2).val = j.val) :
    attnWeights (scale : EReal) (qrow (iblk m c 0 t) r) (kmat (iblk m c 1 t)) j
      = weights3 (scale : EReal) (Q3 m c) (K3 m c) i := by
  have hj : j = i 2 := Fin.ext h2.symm
  show _ = attnWeights (scale : EReal) (row3 (Q3 m c) (i 0) (i 1)) (mat3 (K3 m c) (i 0)) (i 2)
  rw [qrow_block m c t r (i 0) (i 1) h0 h1, kmat_block m c t (i 0) h0, hj]

/-- Point t's output, row r, is `out3` of the arrays at row 256 (t % 8) + r of head t / 8. -/
theorem out_block (c : Dev nD) (t : Fin cfg0.N) (r : Fin 256) (e : Fin 128) (i : S64x2048x128.Idx)
    (h0 : (i 0).val = t.val / 8) (h1 : (i 1).val = 256 * (t.val % 8) + r.val) (h2 : (i 2).val = e.val) :
    attnOut (scale : EReal) (qrow (iblk m c 0 t) r) (kmat (iblk m c 1 t)) (kmat (iblk m c 2 t)) e
      = out3 (scale : EReal) (Q3 m c) (K3 m c) (V3 m c) i := by
  have he : e = i 2 := Fin.ext h2.symm
  show _ = attnOut (scale : EReal) (row3 (Q3 m c) (i 0) (i 1)) (mat3 (K3 m c) (i 0)) (mat3 (V3 m c) (i 0)) (i 2)
  rw [qrow_block m c t r (i 0) (i 1) h0 h1, kmat_block m c t (i 0) h0, vmat_block m c t (i 0) h0, he]

/-- WHAT POINT t WRITES BACK to the weights is block t of `weights3` of the arrays the region finds. -/
theorem flushed_weights (c : Dev nD) (t : Fin cfg0.N) :
    (dats m 0 c).flushed 4 t
      = ((cfg0.win 4).blk t).view.read (Elt Ideal) (weights3 (scale : EReal) (Q3 m c) (K3 m c)) := by
  show (cfg0.win 4).cut (grid0.coords t) ((dats m 0 c).after 4 t) = _
  rw [after0_4]
  unfold out0_4
  rw [View.canon_unit_zero hz]
  simp only [View.ld_unit_zero (S := S1x256x128) hz, View.ld_unit_zero (S := S1x2048x128) hz]
  obtain ⟨-, -, -, -, -, -, -, -, -, -, -, -, e0, e1, e2⟩ := idx_facts t
  funext y
  have hy0 : (y 0).val < 1 := (y 0).isLt
  refine (weights_at (iblk m c 0 t) (iblk m c 1 t) _).trans ?_
  refine weights_block m c t _ _ _ ?_ ?_ ?_
  · show win0_4.index t 0 * 1 + 1 * (y 0).val = t.val / 8
    rw [e0]; omega
  · show win0_4.index t 1 * 256 + 1 * (y 1).val = 256 * (t.val % 8) + (y 1).val
    rw [e1]; omega
  · show win0_4.index t 2 * 2048 + 1 * (y 2).val = (y 2).val
    rw [e2]; omega

/-- WHAT POINT t WRITES BACK to the output is block t of `out3` of the arrays the region finds. -/
theorem flushed_out (c : Dev nD) (t : Fin cfg0.N) :
    (dats m 0 c).flushed 3 t
      = ((cfg0.win 3).blk t).view.read (Elt Ideal) (out3 (scale : EReal) (Q3 m c) (K3 m c) (V3 m c)) := by
  show (cfg0.win 3).cut (grid0.coords t) ((dats m 0 c).after 3 t) = _
  rw [after0_3]
  unfold out0_3
  rw [View.canon_unit_zero hz]
  simp only [View.ld_unit_zero (S := S1x256x128) hz, View.ld_unit_zero (S := S1x2048x128) hz]
  obtain ⟨-, -, -, -, -, -, -, -, -, e0, e1, e2, -⟩ := idx_facts t
  funext y
  have hy0 : (y 0).val < 1 := (y 0).isLt
  refine (out_at (iblk m c 0 t) (iblk m c 1 t) (iblk m c 2 t) _).trans ?_
  refine out_block m c t _ _ _ ?_ ?_ ?_
  · show win0_3.index t 0 * 1 + 1 * (y 0).val = t.val / 8
    rw [e0]; omega
  · show win0_3.index t 1 * 256 + 1 * (y 1).val = 256 * (t.val % 8) + (y 1).val
    rw [e1]; omega
  · show win0_3.index t 2 * 128 + 1 * (y 2).val = (y 2).val
    rw [e2]; omega

/-! ## The blocks cover the arrays -/

theorem mem_blk_weights (t : Fin cfg0.N) (i : S64x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3_1).slice (win0_4.rect t)).set ↔ _
  rw [View.set_slice_whole, Rect.mem_set_unit]
  exact Iff.rfl

theorem mem_blk_out (t : Fin cfg0.N) (i : S64x2048x128.Idx) :
    i ∈ ((cfg0.win 3).blk t).view.set ↔ ∀ a : Fin 3, win0_3.index t a * S1x256x128.size a ≤ (i a).val
      ∧ (i a).val < win0_3.index t a * S1x256x128.size a + S1x256x128.size a := by
  show i ∈ ((View.whole main_v3_0).slice (win0_3.rect t)).set ↔ _
  rw [View.set_slice_whole, Rect.mem_set_unit]
  exact Iff.rfl

/-- Row q of head n is in the block of point 8 n + q / 256. -/
theorem cover_weights (i : S64x2048x2048.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 2048 := (i 2).isLt
  have hN : cfg0.N = 512 := N_0
  obtain ⟨t, ht⟩ : ∃ t : Fin cfg0.N, t.val = (i 0).val * 8 + (i 1).val / 256 :=
    ⟨⟨(i 0).val * 8 + (i 1).val / 256, by rw [hN]; omega⟩, rfl⟩
  obtain ⟨-, -, -, -, -, -, -, -, -, -, -, -, e0, e1, e2⟩ := idx_facts t
  refine ⟨t, flush0_4 t, ?_⟩
  rw [mem_blk_weights]
  intro a
  match a with
  | ⟨0, _⟩ =>
    show win0_4.index t 0 * 1 ≤ (i 0).val ∧ (i 0).val < win0_4.index t 0 * 1 + 1
    rw [e0, ht]; omega
  | ⟨1, _⟩ =>
    show win0_4.index t 1 * 256 ≤ (i 1).val ∧ (i 1).val < win0_4.index t 1 * 256 + 256
    rw [e1, ht]; omega
  | ⟨2, _⟩ =>
    show win0_4.index t 2 * 2048 ≤ (i 2).val ∧ (i 2).val < win0_4.index t 2 * 2048 + 2048
    rw [e2]; omega

theorem cover_out (i : S64x2048x128.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 128 := (i 2).isLt
  have hN : cfg0.N = 512 := N_0
  obtain ⟨t, ht⟩ : ∃ t : Fin cfg0.N, t.val = (i 0).val * 8 + (i 1).val / 256 :=
    ⟨⟨(i 0).val * 8 + (i 1).val / 256, by rw [hN]; omega⟩, rfl⟩
  obtain ⟨-, -, -, -, -, -, -, -, -, e0, e1, e2, -⟩ := idx_facts t
  refine ⟨t, flush0_3 t, ?_⟩
  rw [mem_blk_out]
  intro a
  match a with
  | ⟨0, _⟩ =>
    show win0_3.index t 0 * 1 ≤ (i 0).val ∧ (i 0).val < win0_3.index t 0 * 1 + 1
    rw [e0, ht]; omega
  | ⟨1, _⟩ =>
    show win0_3.index t 1 * 256 ≤ (i 1).val ∧ (i 1).val < win0_3.index t 1 * 256 + 256
    rw [e1, ht]; omega
  | ⟨2, _⟩ =>
    show win0_3.index t 2 * 128 ≤ (i 2).val ∧ (i 2).val < win0_3.index t 2 * 128 + 128
    rw [e2]; omega

/-! ## The two arrays after the region -/

/-- THE WEIGHTS after the region: `weights3` of the arrays the region finds. -/
theorem final_weights (c : Dev nD) :
    (dats m 0 c).arrAt 4 cfg0.N = weights3 (scale : EReal) (Q3 m c) (K3 m c) :=
  (dats m 0 c).arrAt_eq_of_cover 4 (weights3 (scale : EReal) (Q3 m c) (K3 m c))
    (fun t _ => flushed_weights m c t) cover_weights

/-- THE OUTPUT after the region: `out3` of the arrays the region finds. -/
theorem final_out (c : Dev nD) :
    (dats m 0 c).arrAt 3 cfg0.N = out3 (scale : EReal) (Q3 m c) (K3 m c) (V3 m c) :=
  (dats m 0 c).arrAt_eq_of_cover 3 (out3 (scale : EReal) (Q3 m c) (K3 m c) (V3 m c))
    (fun t _ => flushed_out m c t) cover_out

/-! ## The arrays the region finds are the arguments, flattened -/

theorem Q3_eq (c : Dev nD) :
    Q3 m c = shapeCast S64x2048x128 (m ((c : Thread nD τ).loc main_arg0)) shapeCasts_S4x16x2048x128_S64x2048x128 := by
  show StableHlo.after hostOps0 (fun b => m (c, b)) (Proc.devRef .tc main_v0) = _
  after_results
  rfl

theorem K3_eq (c : Dev nD) :
    K3 m c = shapeCast S64x2048x128 (m ((c : Thread nD τ).loc main_arg1)) shapeCasts_S4x16x2048x128_S64x2048x128 := by
  show StableHlo.after hostOps0 (fun b => m (c, b)) (Proc.devRef .tc main_v1) = _
  after_results
  rfl

theorem V3_eq (c : Dev nD) :
    V3 m c = shapeCast S64x2048x128 (m ((c : Thread nD τ).loc main_arg2)) shapeCasts_S4x16x2048x128_S64x2048x128 := by
  show StableHlo.after hostOps0 (fun b => m (c, b)) (Proc.devRef .tc main_v2) = _
  after_results
  rfl

end Cert.Attention.Kernel

end
-- ==== Proof.KernelRun.lean ====
/-
  The idealized kernel's run, read: its two results are the attention output and weights of its arguments.

  After the region the program puts the [64, 2048, 128] output and the [64, 2048, 2048] weights back into four
  axes.  The region leaves `out3` and `weights3` of the flattened arguments in those arrays, and a reshape keeps
  row-major order, so the results are `out4` and `weights4` of the arguments themselves; the arguments end as they
  were launched.
-/
import proofs.«411824_j29094108463701_3_alg».proof.Proof.Gen.KernelIdeal.Frame
import proofs.«411824_j29094108463701_3_alg».proof.Proof.Blocks
import Idealize.ShloMosaic.Lib.Pipeline.Value
import Idealize.ShloMosaic.Lib.StableHlo.Run
import Idealize.ShloMosaic.Lib.Tactic

set_option maxRecDepth 16384

noncomputable section

namespace Cert.Attention.Kernel

open Cert.KernelIdeal Cert.KernelIdeal.Gen
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

/-- The output array after the region, in terms of the arguments. -/
theorem region_out (c : Dev nD) :
    (dats m 0 c).arrAt 3 cfg0.N
      = out3 (scale : EReal)
          (shapeCast S64x2048x128 (m ((c : Thread nD τ).loc main_arg0)) shapeCasts_S4x16x2048x128_S64x2048x128)
          (shapeCast S64x2048x128 (m ((c : Thread nD τ).loc main_arg1)) shapeCasts_S4x16x2048x128_S64x2048x128)
          (shapeCast S64x2048x128 (m ((c : Thread nD τ).loc main_arg2)) shapeCasts_S4x16x2048x128_S64x2048x128) := by
  rw [final_out, Q3_eq, K3_eq, V3_eq]

/-- The weights array after the region, in terms of the arguments. -/
theorem region_weights (c : Dev nD) :
    (dats m 0 c).arrAt 4 cfg0.N
      = weights3 (scale : EReal)
          (shapeCast S64x2048x128 (m ((c : Thread nD τ).loc main_arg0)) shapeCasts_S4x16x2048x128_S64x2048x128)
          (shapeCast S64x2048x128 (m ((c : Thread nD τ).loc main_arg1)) shapeCasts_S4x16x2048x128_S64x2048x128) := by
  rw [final_weights, Q3_eq, K3_eq]

/-- The first result: the output array put back into four axes. -/
theorem tail_out (c : Dev nD) :
    Pipeline.afterTail₀ cfgs (dats m) 0 (V0 m) [hostOps1] c main_v4
      = out4 (scale : EReal) (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v3_0)
      = out3 (scale : EReal)
          (shapeCast S64x2048x128 (m ((c : Thread nD τ).loc main_arg0)) shapeCasts_S4x16x2048x128_S64x2048x128)
          (shapeCast S64x2048x128 (m ((c : Thread nD τ).loc main_arg1)) shapeCasts_S4x16x2048x128_S64x2048x128)
          (shapeCast S64x2048x128 (m ((c : Thread nD τ).loc main_arg2)) shapeCasts_S4x16x2048x128_S64x2048x128) :=
    (Pipeline.withArrays_arr spec0 winFacts0.arr_inj c (V0 m c) (fun w => (dats m 0 c).arrAt w cfg0.N) 3).trans
      (region_out m c)
  rw [hA]
  exact out_unflatten (scale : EReal) _ _ _ _ _

/-- The second result: the weights array put back into four axes. -/
theorem tail_weights (c : Dev nD) :
    Pipeline.afterTail₀ cfgs (dats m) 0 (V0 m) [hostOps1] c main_v5
      = weights4 (scale : EReal) (m ((c : Thread nD τ).loc main_arg0)) (m ((c : Thread nD τ).loc main_arg1)) := by
  unfold Pipeline.afterTail₀
  show StableHlo.after hostOps1 _ (Proc.devRef .tc main_v5) = _
  after_results
  have hA : Pipeline.withArrays (cfgs 0).spec c (V0 m c) (fun w => (dats m 0 c).arrAt w (cfgs 0).N)
      (Proc.devRef .tc main_v3_1)
      = weights3 (scale : EReal)
          (shapeCast S64x2048x128 (m ((c : Thread nD τ).loc main_arg0)) shapeCasts_S4x16x2048x128_S64x2048x128)
          (shapeCast S64x2048x128 (m ((c : Thread nD τ).loc main_arg1)) shapeCasts_S4x16x2048x128_S64x2048x128) :=
    (Pipeline.withArrays_arr spec0 winFacts0.arr_inj c (V0 m c) (fun w => (dats m 0 c).arrAt w cfg0.N) 4).trans
      (region_weights m c)
  rw [hA]
  exact weights_unflatten (scale : EReal) _ _ _ _

/-- THE RUN: every weakly fair execution of the idealized kernel terminates with its first result at the attention
    output and its second at the attention weights of its arguments, the arguments unchanged. -/
theorem run : θ_run defs (onTc (τ := τ) (main (F := Ideal))) ⟨m, fun _ => 0, ρ⟩ fun r => ∀ c : Dev nD,
      r.2.mem ((c : Thread nD τ).loc main_v4)
        = out4 (scale : EReal) (m ((c : Thread nD τ).loc main_arg0)) (m ((c : Thread nD τ).loc main_arg1))
            (m ((c : Thread nD τ).loc main_arg2))
      ∧ r.2.mem ((c : Thread nD τ).loc main_v5)
        = weights4 (scale : EReal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_out m c),
      ((h c).2 main_v5 (Pipeline.mem_restRefs_of main_v5 (by decide) (by decide))).trans (tail_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attention.Kernel

end
-- ==== Proof.lean ====
/-
  The certificate of a fused attention kernel against softmax attention in jnp.

  Both programs compute, for queries, keys and values of shape [4, 16, 2048, 128], the attention weights
  softmax_k (q · k / √128) and the output Σ_k weights · v.  The reference divides the logits by D, the f32 nearest to
  √128; the kernel scales the queries by the f32 nearest to 1 / √128, which the certificate's table reads as 1 / D.
  At the ideal values a nonnegative finite factor leaves any sum of extended reals, so the two logits are one
  extended real at every index, whatever the inputs; from there both programs take the same row maximum from −∞,
  the same exponentials, the same row sum and quotient, and the same combination of the values.  Changes of float
  format are the identity there, and a different tiling or order of a sum does not change it.

  The three frames: the kernel's two are the generated ones; the reference's is its generated run with the results
  dropped.  The idealization's one recorded rewrite is the named scale.  The value claim states both runs' results
  as `out4` and `weights4` of the arguments.
-/
import proofs.«411824_j29094108463701_3_alg».proof.Defs
import proofs.«411824_j29094108463701_3_alg».proof.Proof.Gen.Kernel
import proofs.«411824_j29094108463701_3_alg».proof.Proof.Gen.Kernel.Skeleton
import proofs.«411824_j29094108463701_3_alg».proof.Proof.Gen.Kernel.Launch
import proofs.«411824_j29094108463701_3_alg».proof.Proof.Gen.Kernel.Points
import proofs.«411824_j29094108463701_3_alg».proof.Proof.Gen.Kernel.Frame
import proofs.«411824_j29094108463701_3_alg».proof.Proof.Gen.KernelIdeal
import proofs.«411824_j29094108463701_3_alg».proof.Proof.Gen.KernelIdeal.Skeleton
import proofs.«411824_j29094108463701_3_alg».proof.Proof.Gen.KernelIdeal.Launch
import proofs.«411824_j29094108463701_3_alg».proof.Proof.Gen.KernelIdeal.Points
import proofs.«411824_j29094108463701_3_alg».proof.Proof.Gen.KernelIdeal.Frame
import proofs.«411824_j29094108463701_3_alg».proof.Proof.Gen.ReferenceIdeal
import proofs.«411824_j29094108463701_3_alg».proof.Proof.Gen.ReferenceIdeal.Run
import proofs.«411824_j29094108463701_3_alg».proof.Proof.Gen.ReferenceIdeal.Read
import proofs.«411824_j29094108463701_3_alg».proof.Proof.Gen.Pre_finite_inputs
import proofs.«411824_j29094108463701_3_alg».proof.Proof.Reference
import proofs.«411824_j29094108463701_3_alg».proof.Proof.KernelRun
import Idealize.ShloMosaic.Adequacy
import Idealize.ShloMosaic.Init

noncomputable section

namespace Cert.Proof

open Idealize.ShloMosaic Idealize.SL.Sem Cert.Attention

theorem frame_kernel : Cert.frame_Kernel := fun m ρ _ => Cert.Kernel.Gen.frame m ρ

theorem frame_kernel_ideal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The one recorded rewrite: the kernel's scale constant is named, and the table gives the name the value 1 / D. -/
theorem preserves : Cert.preserves_Kernel_KernelIdeal :=
  IdealRules.named_const.statement Cert.KernelIdeal.κ "fold_c_1048576_11863283" .f32 0x3DB504F3#32
    ((1048576 / 11863283 : ℝ) : EReal) rfl

/-- Both runs end with the attention output and the attention weights of the arguments they agree on. -/
theorem algebraic : Cert.algebraic_KernelIdeal_ReferenceIdeal := by
  intro m ρ m' ρ' _ hagree
  refine ⟨_, _, Cert.Attention.Kernel.run m ρ, ?_⟩
  refine (θ_run Cert.ReferenceIdeal.defs _ _).mono (fun _ h c => ?_)
    (Cert.ReferenceIdeal.Value.run (F := Ideal) m' ρ')
  obtain ⟨hout, hw, ha0, ha1, ha2⟩ := h c
  obtain ⟨e0, e1, e2⟩ := hagree c
  refine ⟨hout.trans ?_, hw.trans ?_, ha0, ha1, ha2⟩
  · rw [Cert.ReferenceIdeal.Read.val_main_v14_eq, Cert.Attention.Ref.out_eq, e0, e1, e2]
  · rw [Cert.ReferenceIdeal.Read.val_main_v13_eq, Cert.Attention.Ref.weights_eq, e0, e1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
